-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192x1 : Shape := ⟨2, ![8192, 1]⟩
abbrev S8192x1025 : Shape := ⟨2, ![8192, 1025]⟩
abbrev S1024x1 : Shape := ⟨2, ![1024, 1]⟩
abbrev S1024x1025 : Shape := ⟨2, ![1024, 1025]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S8192x1, .f32⟩
  | .hbm, ⟨5, _⟩ => ⟨S8192x1025, .f32⟩
  | .hbm, ⟨6, _⟩ => ⟨S1024x1, .f32⟩
  | .hbm, ⟨7, _⟩ => ⟨S1024x1025, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  concatenates_S8192x1024_S8192x1_S8192x1025_d1 : Shape.Concatenates [S8192x1024, S8192x1] S8192x1025 1
  bcast_S1024_S1024x1_0 : S1024.BroadcastsInDim S1024x1 (![0] : Fin 1 → Fin S1024x1.rank)
  concatenates_S1024x1024_S1024x1_S1024x1025_d1 : Shape.Concatenates [S1024x1024, S1024x1] S1024x1025 1
  dot_S8192x1025_S1024x1025_S8192x1024_1_1_0_0_n_n_wf : DotDims.WF S8192x1025 S1024x1025 S8192x1024 [1] [1] [0] [0] [] []

variable [Facts₀]

def dot_S8192x1025_S1024x1025_S8192x1024_1_1_0_0_n_n : DotDims S8192x1025 S1024x1025 S8192x1024 where
  lhsContracting := [1]
  rhsContracting := [1]
  lhsNonContracting := [0]
  rhsNonContracting := [0]
  lhsBatch := []
  rhsBatch := []
  wf := dot_S8192x1025_S1024x1025_S8192x1024_1_1_0_0_n_n_wf

class Facts : Prop extends Facts₀ where

variable [Facts]
-- ==== Proof.Spec.lean ====
/-
  The affine map that both programs compute, written once as a function of the three argument arrays,
  and the one algebraic fact that joins the two ways it is spelt.

  With x : [8192, 1024], W : [1024, 1024] and b : [1024], entry (i, j) of the result is

      Σ_{k < 1024} x[i, k] · W[j, k]  +  b[j]

  on the extended reals. One program contracts x against the transpose of W and then adds the bias row;
  the other appends a column of ones to x and the column b to W and contracts over the 1025 columns, so
  that its last term is 1 · b[j]. The two agree because a sum over 1025 terms is the sum of the first
  1024 plus the last (addition of extended reals is commutative and associative) and 1 · β = β for
  every extended real β, the infinities included: no finiteness of the inputs is needed.
-/
import Idealize.ShloMosaic.PureOps.Ideal
import Idealize.ShloMosaic.Lib.ValueIdx

noncomputable section

open scoped BigOperators

namespace Cert.Affine

open Idealize.ShloMosaic Idealize.ShloMosaic.ValueIdx

/-- The batch of inputs and the result: 8192 rows of 1024 entries. -/
abbrev SX : Shape := ⟨2, ![8192, 1024]⟩
/-- The weight matrix: one row of 1024 entries per output feature. -/
abbrev SW : Shape := ⟨2, ![1024, 1024]⟩
/-- The bias: one entry per output feature. -/
abbrev SB : Shape := ⟨1, ![1024]⟩

/-- `affine x W b` at (i, j) is the inner product of row i of x with row j of W, plus b[j]. -/
def affine (x : FVec Ideal SX .f32) (W : FVec Ideal SW .f32) (b : FVec Ideal SB .f32) : FVec Ideal SX .f32 :=
  fun j => (∑ k : Fin 1024, x (ix2 (j 0) k) * W (ix2 (j 1) k)) + b (ix1 (j 1))

/-- The binary32 word 0x3F800000 is the number one. -/
theorem ofBits_one_f32 : Ideal.ofBits .f32 0x3F800000#32 = 1 := by
  simp [Ideal.ofBits, Ideal.ieee]
  rw [← EReal.coe_mul]
  norm_num

/-- A sum of 1025 terms whose first 1024 are `f` and whose last is `1 · β` is the sum of `f` plus `β`. -/
theorem sum_augmented (f : Fin 1024 → EReal) (β : EReal) (g : Fin 1025 → EReal)
    (hlo : ∀ k : Fin 1024, g k.castSucc = f k) (hhi : g (Fin.last 1024) = 1 * β) :
    ∑ k : Fin 1025, g k = (∑ k : Fin 1024, f k) + β := by
  rw [Fin.sum_univ_castSucc, hhi, one_mul]
  exact congrArg (· + β) (Finset.sum_congr rfl fun k _ => hlo k)

end Cert.Affine

end
-- ==== Proof.RefAffine.lean ====
/-
  The reference's result is the affine map.

  The reference appends a column of ones to x (giving [8192, 1025]) and the column b to W (giving
  [1024, 1025]) and contracts the two over their 1025 columns. At entry (i, j) that is a sum of 1025
  products. For a column k < 1024 the two appended arrays read x[i, k] and W[j, k]; at the last column
  they read 1 and b[j]. So the sum is  Σ_{k < 1024} x[i, k] · W[j, k]  +  1 · b[j], which is the affine
  map at (i, j).
-/
import proofs.«137291_j28999619182924_1_alg».proof.Proof.Gen.ReferenceIdeal.Read
import proofs.«137291_j28999619182924_1_alg».proof.Proof.Spec

noncomputable section

open scoped BigOperators

namespace Cert.ReferenceIdeal.AffineValue

open Cert.ReferenceIdeal Cert.ReferenceIdeal.Gen Cert.ReferenceIdeal.Read
open Idealize.ShloMosaic Idealize.ShloMosaic.ValueIdx Cert.Affine

/-- x with the column of ones appended, read at a column below 1024, is x there. -/
theorem ones_appended_left (x : FVec Ideal S8192x1024 .f32) (i : S8192x1024.Idx) (k : Fin 1024) :
    val_main_v1 (F := Ideal) x (lidx_main_v4 i k.castSucc) = x (ix2 (i 0) k) := by
  unfold val_main_v1
  exact concatenate_pair_apply_left 1 x _ concatenates_S8192x1024_S8192x1_S8192x1025_d1 _ rfl (ix2 (i 0) k)
    (fun b => match b with | ⟨0, _⟩ => rfl | ⟨1, _⟩ => rfl)

/-- x with the column of ones appended, read at the last column, is one. -/
theorem ones_appended_last (x : FVec Ideal S8192x1024 .f32) (i : S8192x1024.Idx) :
    val_main_v1 (F := Ideal) x (lidx_main_v4 i (Fin.last 1024)) = 1 := by
  unfold val_main_v1
  rw [concatenate_pair_apply_right 1 x _ concatenates_S8192x1024_S8192x1_S8192x1025_d1 _ rfl rfl (ix2 (i 0) (0 : Fin 1))
    (fun b hb => match b with | ⟨0, _⟩ => rfl | ⟨1, _⟩ => absurd rfl hb) rfl]
  rw [val_main_v0_apply, val_main_cst_apply]
  exact ofBits_one_f32

/-- W with the column b appended, read at a column below 1024, is W there. -/
theorem bias_appended_left (W : FVec Ideal S1024x1024 .f32) (b : FVec Ideal S1024 .f32) (i : S8192x1024.Idx) (k : Fin 1024) :
    val_main_v3 (F := Ideal) W b (ridx_main_v4 i k.castSucc) = W (ix2 (i 1) k) := by
  unfold val_main_v3
  exact concatenate_pair_apply_left 1 W _ concatenates_S1024x1024_S1024x1_S1024x1025_d1 _ rfl (ix2 (i 1) k)
    (fun b => match b with | ⟨0, _⟩ => rfl | ⟨1, _⟩ => rfl)

/-- W with the column b appended, read at the last column of row j, is b[j]. -/
theorem bias_appended_last (W : FVec Ideal S1024x1024 .f32) (b : FVec Ideal S1024 .f32) (i : S8192x1024.Idx) :
    val_main_v3 (F := Ideal) W b (ridx_main_v4 i (Fin.last 1024)) = b (ix1 (i 1)) := by
  unfold val_main_v3
  rw [concatenate_pair_apply_right 1 W _ concatenates_S1024x1024_S1024x1_S1024x1025_d1 _ rfl rfl (ix2 (i 1) (0 : Fin 1))
    (fun b hb => match b with | ⟨0, _⟩ => rfl | ⟨1, _⟩ => absurd rfl hb) rfl]
  rw [val_main_v2_apply]
  exact congrArg b (funext fun a => match a with | ⟨0, _⟩ => rfl)

/-- The contraction over the 1025 columns of the two appended arrays is the affine map. -/
theorem reference_is_affine (x : FVec Ideal S8192x1024 .f32) (W : FVec Ideal S1024x1024 .f32) (b : FVec Ideal S1024 .f32) :
    val_main_v4 (F := Ideal) x W b = affine x W b := by
  funext i
  rw [val_main_v4_apply]
  show _ = (∑ k : Fin 1024, x (ix2 (i 0) k) * W (ix2 (i 1) k)) + b (ix1 (i 1))
  refine sum_augmented (fun k => x (ix2 (i 0) k) * W (ix2 (i 1) k)) (b (ix1 (i 1))) _ (fun k => ?_) ?_
  · show val_main_v1 (F := Ideal) x (lidx_main_v4 i k.castSucc) * val_main_v3 (F := Ideal) W b (ridx_main_v4 i k.castSucc) = _
    rw [ones_appended_left, bias_appended_left]
  · show val_main_v1 (F := Ideal) x (lidx_main_v4 i (Fin.last 1024)) * val_main_v3 (F := Ideal) W b (ridx_main_v4 i (Fin.last 1024)) = _
    rw [ones_appended_last, bias_appended_last]

end Cert.ReferenceIdeal.AffineValue

end
-- ==== Proof.KernelEntry.lean ====
/-
  One entry of what the kernel body stores.

  At a grid point the body loads a [1024, 1024] block A of the converted input, the whole converted and
  transposed weight matrix B ([1024, 1024], contraction index first) and the bias vector β, multiplies A
  by B into a zero accumulator and adds β to every row. So entry (p, q) of the stored block is

      Σ_{k < 1024} A[p, k] · B[k, q]  +  β[q].

  The product into a zero accumulator is the plain sum of products over the one contracted axis; the
  bias is laid out as a single row and repeated down the 1024 rows.
-/
import proofs.«137291_j28999619182924_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen
open Idealize.ShloMosaic Idealize.ShloMosaic.ValueIdx

/-! ## The product's operand indices, axis by axis -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contracted (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_contracted (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_column (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two [1024, 1024] blocks into a zero accumulator, at (p, q): the sum over k of A[p, k] · B[k, q]. -/
theorem product_apply (A B : FVec Ideal S1024x1024 .bf16) (p q : Fin 1024) :
    matmul dot_S1024x1024_S1024x1024_S1024x1024_1_0_0_1_n_n none A B (constant S1024x1024 .f32 0x00000000#32) (ix2 p q)
      = ∑ k : Fin 1024, A (ix2 p k) * B (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_contracted _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_contracted _ _).trans hk
    | ⟨1, _⟩ => exact rhs_column _ _)
  rw [el, er]

/-- The bias laid out as one row and repeated down the rows, at (p, q), is β[q]. -/
theorem bias_rows_apply (β : FVec Ideal S1024 .f32) (p q : Fin 1024) :
    broadcastTo S1024x1024 (shapeCast S1x1024 β shapeCasts_S1024_S1x1024) broadcasts_S1x1024_S1024x1024 (ix2 p q) = β (ix1 q) := by
  refine (broadcastTo_apply _ broadcasts_S1x1024_S1024x1024 (ix2 p q) (ix2 (0 : Fin 1) q) (fun a => match a with
    | ⟨0, _⟩ => by show (0 : ℕ) = if (1 : ℕ) = 1 then 0 else _; rw [if_pos rfl]
    | ⟨1, _⟩ => by show q.val = if (1024 : ℕ) = 1 then 0 else q.val; rw [if_neg (by decide)])).trans ?_
  exact shapeCast_apply β shapeCasts_S1024_S1x1024 (ix2 (0 : Fin 1) q) (ix1 q) (by
    rw [Shape.rowMajor_val_one, Shape.rowMajor_val_two]
    show q.val = 0 * 1024 + q.val
    omega)

/-- Entry (p, q) of the block the body stores. -/
theorem stored_entry (A B : Vec Ideal S1024x1024 .bf16) (β : Vec Ideal S1024 .f32) (p q : Fin 1024) :
    k0_pay1 (F := Ideal) A B β (ix2 p q) = (∑ k : Fin 1024, A (ix2 p k) * B (ix2 k q)) + β (ix1 q) := by
  unfold k0_pay1
  show matmul (F := Ideal) dot_S1024x1024_S1024x1024_S1024x1024_1_0_0_1_n_n none (shapeCast S1024x1024 A shapeCasts_S1024x1024_S1024x1024)
      (shapeCast S1024x1024 B shapeCasts_S1024x1024_S1024x1024) (constant (F := Ideal) S1024x1024 .f32 0x00000000#32) (ix2 p q)
    + broadcastTo S1024x1024 (shapeCast S1x1024 β shapeCasts_S1024_S1x1024) broadcasts_S1x1024_S1024x1024 (ix2 p q) = _
  rw [shapeCast_self, shapeCast_self, product_apply, bias_rows_apply]

end Cert.KernelIdeal.Entry

end
-- ==== Proof.KernelBlocks.lean ====
/-
  From the blocks the grid points write to the whole result array.

  The grid has 8 points. Point t stages rows 1024 t … 1024 t + 1023 of the converted input, the whole
  converted transposed weight matrix and the whole bias, and writes back rows 1024 t … 1024 t + 1023 of the
  result. Converting to the narrower float format changes nothing on the extended reals, and the transposed
  weights read W[j, k] at (k, j). So the block point t writes is exactly rows 1024 t … of the affine map of
  the three argument arrays; the 8 blocks tile the 8192 rows, and the result array ends holding the affine map.
-/
import proofs.«137291_j28999619182924_1_alg».proof.Proof.Gen.KernelIdeal.Value
import proofs.«137291_j28999619182924_1_alg».proof.Proof.KernelEntry
import proofs.«137291_j28999619182924_1_alg».proof.Proof.Spec
import Idealize.ShloMosaic.Lib.StableHlo.Run
import Idealize.ShloMosaic.Lib.ValueLayout

set_option maxRecDepth 16384

noncomputable section

open scoped BigOperators

namespace Cert.KernelIdeal.AffineValue

open Cert.KernelIdeal Cert.KernelIdeal.Gen Cert.KernelIdeal.Value Cert.KernelIdeal.Entry
open Idealize.ShloMosaic Idealize.ShloMosaic.TcCoe Idealize.SL.Sem Idealize.ShloMosaic.ValueIdx
open Idealize.ShloMosaic.Pipeline (Dat)
open Cert.Affine

variable (m : (ℓ : Loc nD τ sig) → Buf (Elt Ideal) ℓ) (ρ : Dev nD → PrngReg)

/-- The three argument arrays on core `c`, at their literal shapes. -/
abbrev xarr (c : Dev nD) : FVec Ideal S8192x1024 .f32 := m ((c : Thread nD τ).loc main_arg0)
abbrev warr (c : Dev nD) : FVec Ideal S1024x1024 .f32 := m ((c : Thread nD τ).loc main_arg1)
abbrev barr (c : Dev nD) : FVec Ideal S1024 .f32 := m ((c : Thread nD τ).loc main_arg2)

/-! ## What the kernel finds in the arrays it stages -/

/-- The converted input is the input: a change of float format is the identity on the extended reals. -/
theorem staged_input (c : Dev nD) : (V m c main_v1 : S8192x1024.Idx → EReal) = xarr m c := by
  dsimp only [Gen.V, Gen.hostOps0]
  after_results
  rfl

/-- The converted transposed weights are the transposed weights. -/
theorem staged_weights (c : Dev nD) :
    (V m c main_v2 : S1024x1024.Idx → EReal) = transpose S1024x1024 [1, 0] (warr m c) transposes_S1024x1024_S1024x1024_1_0 := by
  dsimp only [Gen.V, Gen.hostOps0]
  after_results
  rfl

/-! ## One entry of a written block against the affine map -/

/-- If the three loaded blocks read the argument arrays at the row and the column of array index `i` —
    the input block's row `p` at x's row `i 0`, the weight block's column `q` at W's row `i 1`, the bias at `i 1` —
    then the stored block at (p, q) is the affine map at `i`. -/
theorem stored_entry_is_affine (X : FVec Ideal S8192x1024 .f32) (Wm : FVec Ideal S1024x1024 .f32) (bv : FVec Ideal S1024 .f32)
    (A B : Vec Ideal S1024x1024 .bf16) (β : Vec Ideal S1024 .f32) (i : S8192x1024.Idx) (p q : Fin 1024)
    (hA : ∀ k : Fin 1024, A (ix2 p k) = X (ix2 (i 0) k))
    (hB : ∀ k : Fin 1024, B (ix2 k q) = Wm (ix2 (i 1) k))
    (hβ : β (ix1 q) = bv (ix1 (i 1))) :
    k0_pay1 (F := Ideal) A B β (ix2 p q) = affine X Wm bv i := by
  rw [stored_entry, hβ]
  show _ = (∑ k : Fin 1024, X (ix2 (i 0) k) * Wm (ix2 (i 1) k)) + bv (ix1 (i 1))
  exact congrArg (· + bv (ix1 (i 1))) (Finset.sum_congr rfl fun k _ => by rw [hA k, hB k])

/-! ## The index maps over the grid -/

theorem zeros2 : (![0, 0] : Fin 2 → Nat) = fun _ => 0 := funext fun a => by fin_cases a <;> rfl
theorem zeros1 : (![0] : Fin 1 → Nat) = fun _ => 0 := funext fun a => by fin_cases a <;> rfl

/-- Point `t`'s input block and result block start at row block `t`, column block 0; the weights' and the
    bias's one block starts at 0 (decided over the 8 points). -/
theorem block_starts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-! ## What a point writes back -/

/-- What point `t` writes back is its block of the affine map of the argument arrays. -/
theorem written_block (c : Dev nD) (t : Fin cfg0.N) :
    (dats m 0 c).flushed 3 t = ((cfg0.win 3).blk t).view.read (Elt Ideal) (affine (xarr m c) (warr m c) (barr m c)) := by
  rw [Value.flushed3]
  unfold out0_3
  rw [View.canon_unit_zero zeros2]
  simp only [View.ld_unit_zero (S := S1024x1024) zeros2, View.ld_unit_zero (S := S1024) zeros1]
  obtain ⟨e00, e01, e10, e11, e20, e30, e31⟩ := block_starts t
  show (k0_pay1 (F := Ideal) (iblk m c 0 t) (iblk m c 1 t) (iblk m c 2 t) : S1024x1024.Idx → EReal)
    = fun j : S1024x1024.Idx => affine (xarr m c) (warr m c) (barr m c) (((cfg0.win 3).blk t).view.emb j)
  funext j
  obtain ⟨p, q, rfl⟩ : ∃ (p : Fin 1024) (q : Fin 1024), j = ix2 p q := ⟨j 0, j 1, eq_ix2 j⟩
  refine stored_entry_is_affine (xarr m c) (warr m c) (barr m c) (iblk m c 0 t) (iblk m c 1 t) (iblk m c 2 t)
    (((cfg0.win 3).blk t).view.emb (ix2 p q)) p q (fun k => ?_) (fun k => ?_) ?_
  · -- the input block's row p is the input's row 1024 t + p
    show V m c main_v1 (((cfg0.win 0).blk t).view.emb (ix2 p k)) = _
    rw [staged_input]
    refine congrArg (xarr m c) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  · -- the weight block is the whole transposed matrix: (k, q) there is W at (q, k)
    show V m c main_v2 (((cfg0.win 1).blk t).view.emb (ix2 k q)) = _
    rw [staged_weights]
    have hidx : ((cfg0.win 1).blk t).view.emb (ix2 k q) = ix2 k q := by
      funext a; apply Fin.ext
      match a with
      | ⟨0, _⟩ => show win0_1.index t (0 : Fin 2) * 1024 + 1 * k.val = k.val; omega
      | ⟨1, _⟩ => show win0_1.index t (1 : Fin 2) * 1024 + 1 * q.val = q.val; omega
    rw [hidx]
    refine (transpose_ix2_apply (warr m c) transposes_S1024x1024_S1024x1024_1_0 k q).trans ?_
    refine congrArg (warr m c) (funext fun a => Fin.ext ?_)
    match a with
    | ⟨0, _⟩ => show q.val = win0_3.index t (1 : Fin 2) * 1024 + 1 * q.val; omega
    | ⟨1, _⟩ => rfl
  · -- the bias block is the whole bias
    show V m c main_arg2 (((cfg0.win 2).blk t).view.emb (ix1 q)) = _
    rw [V_main_arg2]
    refine congrArg (barr m c) (funext fun a => Fin.ext ?_)
    match a with
    | ⟨0, _⟩ => show win0_2.index t (0 : Fin 1) * 1024 + 1 * q.val = win0_3.index t (1 : Fin 2) * 1024 + 1 * q.val; omega

/-! ## The blocks tile the array -/

/-- An index of the result array is in point `t`'s block iff each coordinate is in the block's range on its axis. -/
theorem mem_block (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row r of the result lies in the block of point r / 1024. -/
theorem blocks_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ : ∃ t : Fin cfg0.N, t.val = (i 0).val / 1024 :=
    ⟨⟨(i 0).val / 1024, by show _ < grid0.N; rw [N_0]; omega⟩, rfl⟩
  obtain ⟨-, -, -, -, -, e30, e31⟩ := block_starts t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-! ## The result array, and the run -/

/-- After the run the result array is the affine map of the argument arrays. -/
theorem result_array (c : Dev nD) :
    (dats m 0 c).arrAt 3 cfg0.N = affine (xarr m c) (warr m c) (barr m c) :=
  (dats m 0 c).arrAt_eq_of_cover 3 (affine (xarr m c) (warr m c) (barr m c)) (fun t _ => written_block m c t) blocks_cover

/-- Every weakly fair execution of the kernel program terminates with the result array at the affine map of
    the argument arrays, and the argument arrays unchanged. -/
theorem run : θ_run defs (onTc (τ := τ) (main (F := Ideal))) ⟨m, fun _ => 0, ρ⟩ fun r => ∀ c : Dev nD,
      r.2.mem ((c : Thread nD τ).loc main_v3) = affine (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.AffineValue

end
-- ==== Proof.lean ====
/-
  A linear layer on a batch: out = x · Wᵀ + b with x : [8192, 1024], W : [1024, 1024], b : [1024].

  The kernel transposes W and converts x and Wᵀ to a narrower float format on the host, then on a grid of
  8 points multiplies 1024 rows of x by the whole of Wᵀ into a zero accumulator and adds b to every row.
  The reference appends a column of ones to x and the column b to W and contracts the two over their 1025
  columns. On the extended reals a change of float format is the identity, so both compute, at (i, j),

      Σ_{k < 1024} x[i, k] · W[j, k]  +  b[j]        (Proof/Spec.lean, `affine`),

  the reference because its 1025-th term is 1 · b[j] = b[j] and a finite sum may be split off its last term
  (commutativity and associativity of addition only: no finiteness of the inputs is used).

  Proof/RefAffine.lean     the reference's contraction of the two appended arrays is `affine`;
  Proof/KernelEntry.lean   one entry of the block the kernel body stores;
  Proof/KernelBlocks.lean  the 8 written blocks are the row blocks of `affine` and tile the result.

  The three run-and-leave-the-arguments-alone claims are the generated frames and the reference's generated
  run. The kernel's text read on the extended reals is its own idealization (no operation was rewritten), so
  that claim is trivial.
-/
import proofs.«137291_j28999619182924_1_alg».proof.Defs
import proofs.«137291_j28999619182924_1_alg».proof.Proof.Gen.Kernel
import proofs.«137291_j28999619182924_1_alg».proof.Proof.Gen.Kernel.Skeleton
import proofs.«137291_j28999619182924_1_alg».proof.Proof.Gen.Kernel.Launch
import proofs.«137291_j28999619182924_1_alg».proof.Proof.Gen.Kernel.Points
import proofs.«137291_j28999619182924_1_alg».proof.Proof.Gen.Kernel.Frame
import proofs.«137291_j28999619182924_1_alg».proof.Proof.Gen.KernelIdeal
import proofs.«137291_j28999619182924_1_alg».proof.Proof.Gen.KernelIdeal.Skeleton
import proofs.«137291_j28999619182924_1_alg».proof.Proof.Gen.KernelIdeal.Launch
import proofs.«137291_j28999619182924_1_alg».proof.Proof.Gen.KernelIdeal.Points
import proofs.«137291_j28999619182924_1_alg».proof.Proof.Gen.KernelIdeal.Frame
import proofs.«137291_j28999619182924_1_alg».proof.Proof.Gen.KernelIdeal.Value
import proofs.«137291_j28999619182924_1_alg».proof.Proof.Gen.ReferenceIdeal
import proofs.«137291_j28999619182924_1_alg».proof.Proof.Gen.ReferenceIdeal.Run
import proofs.«137291_j28999619182924_1_alg».proof.Proof.Gen.ReferenceIdeal.Read
import proofs.«137291_j28999619182924_1_alg».proof.Proof.Gen.Pre_finite_inputs
import proofs.«137291_j28999619182924_1_alg».proof.Proof.RefAffine
import proofs.«137291_j28999619182924_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on x, W and b, the kernel's result array and the reference's both end at
    `affine x W b`. -/
theorem algebraic : Cert.algebraic_KernelIdeal_ReferenceIdeal := by
  intro m ρ m' ρ' _ hagree
  refine ⟨fun c => Cert.Affine.affine (Cert.KernelIdeal.AffineValue.xarr m c) (Cert.KernelIdeal.AffineValue.warr m c)
    (Cert.KernelIdeal.AffineValue.barr m c), Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.AffineValue.reference_is_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
